-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : IVec S2x800000 32) (main_arg2 : FVec F S64x64 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S5000x64 : Shape := ⟨2, ![5000, 64]⟩
abbrev S800000x64 : Shape := ⟨2, ![800000, 64]⟩
abbrev S50000x1 : Shape := ⟨2, ![50000, 1]⟩
abbrev S5000x1 : Shape := ⟨2, ![5000, 1]⟩
abbrev S1x64 : Shape := ⟨2, ![1, 64]⟩

abbrev nBuf : Space → Nat
  | .hbm => 60
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S800000, .i1⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S800000x1, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S800000x64, .f32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S50000, .f32⟩
  | .hbm, ⟨58, _⟩ => ⟨S50000x1, .f32⟩
  | .hbm, ⟨59, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S5000x64 : S1x64.Broadcasts S5000x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩

abbrev nBuf : Space → Nat
  | .hbm => 65
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S800000, .i1⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S800000x1, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S800000x64, .f32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S50000, .f32⟩
  | .hbm, ⟨58, _⟩ => ⟨S50000x1, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S1x64, .f32⟩
  | .hbm, ⟨63, _⟩ => ⟨S50000x64, .f32⟩
  | .hbm, ⟨64, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  One graph-convolution layer over the extended reals, as functions of its arrays.

  The layer multiplies the node features X (one row per node) by the weight matrix W, adds up, for every node, the
  rows of XW at its neighbours with the symmetric degree normalisation, adds the node's own row scaled by its
  self-loop weight, and adds the bias. Two of these steps are dense and are stated here entry by entry: the product XW,
  and the last step that joins the aggregated rows, the scaled own row and the bias. The aggregation between them is a
  gather and a scatter by the edge list; it is the same pair of host operations on both sides of the comparison and is
  never opened.
-/
import Idealize.ShloMosaic.PureOps.Ideal.Laws
import Idealize.ShloMosaic.Lib.ValueIdx
import Idealize.ShloMosaic.Lib.ValueLayout
import Idealize.ShloMosaic.Lib.Pipeline.Value

noncomputable section

namespace Gcn

open Idealize.ShloMosaic Idealize.ShloMosaic.ValueIdx

/-- The product of an m×k matrix with a k×n matrix: entry (r, h) is Σ_l A(r, l)·B(l, h). -/
def matProd {m k n : ℕ} (A : (⟨2, ![m, k]⟩ : Shape).Idx → EReal) (B : (⟨2, ![k, n]⟩ : Shape).Idx → EReal) :
    (⟨2, ![m, n]⟩ : Shape).Idx → EReal :=
  fun i => ∑ l : Fin k, A (ix2 (i 0) l) * B (ix2 l (i 1))

theorem matProd_apply {m k n : ℕ} (A : (⟨2, ![m, k]⟩ : Shape).Idx → EReal) (B : (⟨2, ![k, n]⟩ : Shape).Idx → EReal)
    (r : Fin m) (h : Fin n) : matProd A B (ix2 r h) = ∑ l : Fin k, A (ix2 r l) * B (ix2 l h) := rfl

/-- The layer's last step: entry (r, h) is (agg(r, h) + scale(r)·sup(r, h)) + bias(h), the scale a column of one
    entry per row. -/
def combine {a b : ℕ} (agg sup : (⟨2, ![a, b]⟩ : Shape).Idx → EReal) (scale : (⟨2, ![a, 1]⟩ : Shape).Idx → EReal)
    (bias : (⟨1, ![b]⟩ : Shape).Idx → EReal) : (⟨2, ![a, b]⟩ : Shape).Idx → EReal :=
  fun i => (agg i + scale (ix2 (i 0) (0 : Fin 1)) * sup i) + bias (ix1 (i 1))

theorem combine_apply {a b : ℕ} (agg sup : (⟨2, ![a, b]⟩ : Shape).Idx → EReal) (scale : (⟨2, ![a, 1]⟩ : Shape).Idx → EReal)
    (bias : (⟨1, ![b]⟩ : Shape).Idx → EReal) (r : Fin a) (h : Fin b) :
    combine agg sup scale bias (ix2 r h) = (agg (ix2 r h) + scale (ix2 r (0 : Fin 1)) * sup (ix2 r h)) + bias (ix1 h) := rfl

/-- A column [a, 1] repeated along b columns reads, at (p, c), the column's entry of row p. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Gcn

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Region0.lean ====
/-
  The first dense pass: the product XW, written ten blocks of 5000 rows at a time.

  At grid point t the body reads rows 5000·t … 5000·t + 4999 of X and the whole of W, and stores their product
  (both operands narrowed to bf16, which at the ideal values changes nothing, accumulated from zero) as the same rows
  of the result. Entry (r, h) of a block's product is Σ_l X(r, l)·W(l, h) with r the row inside the block; the block's
  rows are rows of X at the block's offset, so each block is a restriction of the one whole product, and the ten
  blocks tile the 50000 rows.
-/
import proofs.«173195_j19361712570525_1_alg».proof.Proof.Gen.KernelIdeal.Frame
import proofs.«173195_j19361712570525_1_alg».proof.Proof.Spec
import proofs.«173195_j19361712570525_1_alg».proof.Proof.LibDenseLayer
import Idealize.ShloMosaic.Lib.Pipeline.Value

set_option maxRecDepth 16384

noncomputable section

namespace Cert.KernelIdeal.Product

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The two arrays the pass reads, as the pass finds them. -/
abbrev feat (c : Dev nD) : S50000x64.Idx → EReal := V c main_arg0
abbrev wgt (c : Dev nD) : S64x64.Idx → EReal := V c main_arg2

theorem offsets_zero : (![0, 0] : Fin 2 → Nat) = fun _ => 0 := funext fun a => by fin_cases a <;> rfl

/-- What the body stores, at an entry: row p of the rows it read times column h of W. -/
theorem stored_apply (x0 : Vec Ideal S5000x64 .f32) (x1 : Vec Ideal S64x64 .f32) (p : Fin 5000) (h : Fin 64) :
    k0_pay1 x0 x1 (ix2 p h) = ∑ l : Fin 64, x0 (ix2 p l) * x1 (ix2 l h) := by
  unfold k0_pay1
  exact DenseLayer.matmul_rows_apply _ none _ _ p h

/-- The block indices over the ten grid points: the rows of X move with the rows of the result, its columns and
    both axes of W stay at block 0. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of rows of the result is some grid point's. -/
theorem block_onto : ∀ q : Fin 10, ∃ t : Fin cfg0.N, win0_2.index t = ![q.val, 0] :=
  (by decide +kernel : ∀ q : Fin 10, ∃ t : Fin grid0.N, win0_2.index t = ![q.val, 0])

/-- What grid point t writes back is block t of the whole product. -/
theorem flushed_eq (c : Dev nD) (t : Fin cfg0.N) :
    (dat0 V c).flushed 2 t
      = ((cfg0.win 2).blk t).view.read (Elt Ideal) (Gcn.matProd (feat V c) (wgt V c)) := by
  show (cfg0.win 2).cut (grid0.coords t) ((dat0 V c).after 2 t) = _
  rw [after0_2]
  unfold out0_2
  rw [View.canon_unit_zero offsets_zero]
  simp only [View.ld_unit_zero (S := S5000x64) offsets_zero, View.ld_unit_zero (S := S64x64) offsets_zero]
  obtain ⟨e0, e1, e2, e3, e4, e5⟩ := block_indices t
  funext j
  obtain ⟨p, h, rfl⟩ : ∃ (p : Fin 5000) (h : Fin 64), j = ix2 p h := ⟨j 0, j 1, eq_ix2 j⟩
  refine (stored_apply (iblk0 V c 0 t) (iblk0 V c 1 t) p h).trans ?_
  show ∑ l : Fin 64, feat V c (((cfg0.win 0).blk t).view.emb (ix2 p l)) * wgt V c (((cfg0.win 1).blk t).view.emb (ix2 l h))
     = ∑ l : Fin 64, feat V c (ix2 ((((cfg0.win 2).blk t).view.emb (ix2 p h)) 0) l)
        * wgt V c (ix2 l ((((cfg0.win 2).blk t).view.emb (ix2 p h)) 1))
  refine Finset.sum_congr rfl fun l _ => ?_
  have h0 : ((cfg0.win 0).blk t).view.emb (ix2 p l) = ix2 ((((cfg0.win 2).blk t).view.emb (ix2 p h)) 0) l := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * l.val = l.val; omega
  have h1 : ((cfg0.win 1).blk t).view.emb (ix2 l h) = ix2 l ((((cfg0.win 2).blk t).view.emb (ix2 p h)) 1) := by
    funext a; apply Fin.ext
    match a with
    | ⟨0, _⟩ => show win0_1.index t (0 : Fin 2) * 64 + 1 * l.val = l.val; omega
    | ⟨1, _⟩ => show win0_1.index t (1 : Fin 2) * 64 + 1 * h.val = win0_2.index t (1 : Fin 2) * 64 + 1 * h.val; omega
  exact congrArg₂ (· * ·) (congrArg (feat V c) h0) (congrArg (wgt V c) h1)

/-- An entry of the result is in grid point t's block iff each coordinate is in the block's range on its axis. -/
theorem mem_block (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v13).slice (win0_2.rect t)).set ↔ _
  rw [View.set_slice_whole, Rect.mem_set_unit]
  exact Iff.rfl

/-- Row r of the result lies in the block of grid point r / 5000. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- After the ten write-backs the result array holds the whole product of the two arrays the pass was entered with. -/
theorem final (c : Dev nD) : (dat0 V c).arrAt 2 cfg0.N = Gcn.matProd (feat V c) (wgt V c) :=
  (dat0 V c).arrAt_eq_of_cover 2 _ (fun t _ => flushed_eq V c t) covered

end Cert.KernelIdeal.Product

end
-- ==== Proof.Region1.lean ====
/-
  The second dense pass: the aggregated rows, the scaled own rows and the bias joined, ten blocks of 5000 rows at a time.

  At grid point t the body reads rows 5000·t … 5000·t + 4999 of the aggregated rows, of XW and of the column of
  self-loop weights, and the whole bias vector, and stores (agg + scale·sup) + bias, the column repeated along the 64
  columns and the bias down the rows. Every entry depends on the same entry of the two matrices, the column's entry of
  its row and the bias's entry of its column, so each block is a restriction of one whole array, and the ten blocks
  tile the 50000 rows.
-/
import proofs.«173195_j19361712570525_1_alg».proof.Proof.Gen.KernelIdeal.Frame
import proofs.«173195_j19361712570525_1_alg».proof.Proof.Spec
import Idealize.ShloMosaic.Lib.Pipeline.Value
import Idealize.ShloMosaic.Lib.ValueLayout

set_option maxRecDepth 16384

noncomputable section

namespace Cert.KernelIdeal.Join

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The four arrays the pass reads, as the pass finds them. -/
abbrev agg (c : Dev nD) : S50000x64.Idx → EReal := V c main_v42
abbrev sup (c : Dev nD) : S50000x64.Idx → EReal := V c main_v13
abbrev scl (c : Dev nD) : S50000x1.Idx → EReal := V c main_v44
abbrev bia (c : Dev nD) : S64.Idx → EReal := V c main_arg3

theorem offsets_zero2 : (![0, 0] : Fin 2 → Nat) = fun _ => 0 := funext fun a => by fin_cases a <;> rfl
theorem offsets_zero1 : (![0] : Fin 1 → Nat) = fun _ => 0 := funext fun a => by fin_cases a; rfl

/-- What the body stores, at an entry: the aggregated entry plus the row's weight times the entry of XW, plus the
    column's bias. -/
theorem stored_apply (b : Vec Ideal S64 .f32) (ag : Vec Ideal S5000x64 .f32) (sc : Vec Ideal S5000x1 .f32)
    (su : Vec Ideal S5000x64 .f32) (p : Fin 5000) (h : Fin 64) :
    k1_pay1 b ag sc su (ix2 p h) = (ag (ix2 p h) + sc (ix2 p (0 : Fin 1)) * su (ix2 p h)) + b (ix1 h) := by
  unfold k1_pay1
  simp only [addf_apply, mulf_apply, shapeCast_self, Gcn.broadcastTo_col_apply, broadcastTo_1b_ab_apply,
    shapeCast_a_1a_apply]

/-- The block indices over the ten grid points: the rows of every row-blocked operand move with the rows of the
    result, every other axis stays at block 0. -/
theorem block_indices : ∀ t : Fin cfg1.N, win1_0.index t (0 : Fin 2) = win1_4.index t (0 : Fin 2)
    ∧ win1_0.index t (1 : Fin 2) = 0 ∧ win1_1.index t (0 : Fin 2) = win1_4.index t (0 : Fin 2)
    ∧ win1_1.index t (1 : Fin 2) = 0 ∧ win1_2.index t (0 : Fin 2) = win1_4.index t (0 : Fin 2)
    ∧ win1_2.index t (1 : Fin 2) = 0 ∧ win1_3.index t (0 : Fin 1) = 0
    ∧ win1_4.index t (1 : Fin 2) = 0 ∧ win1_4.index t (0 : Fin 2) ≤ 9 :=
  (by decide +kernel : ∀ t : Fin grid1.N, _)

/-- Every block of rows of the result is some grid point's. -/
theorem block_onto : ∀ q : Fin 10, ∃ t : Fin cfg1.N, win1_4.index t = ![q.val, 0] :=
  (by decide +kernel : ∀ q : Fin 10, ∃ t : Fin grid1.N, win1_4.index t = ![q.val, 0])

/-- What grid point t writes back is block t of the whole joined array. -/
theorem flushed_eq (c : Dev nD) (t : Fin cfg1.N) :
    (dat1 V c).flushed 4 t
      = ((cfg1.win 4).blk t).view.read (Elt Ideal)
          (Gcn.combine (agg V c) (sup V c) (scl V c) (bia V c)) := by
  show (cfg1.win 4).cut (grid1.coords t) ((dat1 V c).after 4 t) = _
  rw [after1_4]
  unfold out1_4
  rw [View.canon_unit_zero offsets_zero2]
  simp only [View.ld_unit_zero (S := S5000x64) offsets_zero2, View.ld_unit_zero (S := S5000x1) offsets_zero2,
    View.ld_unit_zero (S := S64) offsets_zero1]
  obtain ⟨e0, e1, e2, e3, e4, e5, e6, e7, e8⟩ := block_indices t
  funext j
  obtain ⟨p, h, rfl⟩ : ∃ (p : Fin 5000) (h : Fin 64), j = ix2 p h := ⟨j 0, j 1, eq_ix2 j⟩
  refine (stored_apply (iblk1 V c 3 t) (iblk1 V c 0 t) (iblk1 V c 2 t) (iblk1 V c 1 t) p h).trans ?_
  show (agg V c (((cfg1.win 0).blk t).view.emb (ix2 p h))
        + scl V c (((cfg1.win 2).blk t).view.emb (ix2 p (0 : Fin 1))) * sup V c (((cfg1.win 1).blk t).view.emb (ix2 p h)))
        + bia V c (((cfg1.win 3).blk t).view.emb (ix1 h))
     = (agg V c (((cfg1.win 4).blk t).view.emb (ix2 p h))
        + scl V c (ix2 ((((cfg1.win 4).blk t).view.emb (ix2 p h)) 0) (0 : Fin 1)) * sup V c (((cfg1.win 4).blk t).view.emb (ix2 p h)))
        + bia V c (ix1 ((((cfg1.win 4).blk t).view.emb (ix2 p h)) 1))
  have h0 : ((cfg1.win 0).blk t).view.emb (ix2 p h) = ((cfg1.win 4).blk t).view.emb (ix2 p h) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * h.val = win1_4.index t (1 : Fin 2) * 64 + 1 * h.val; omega
  have h1 : ((cfg1.win 1).blk t).view.emb (ix2 p h) = ((cfg1.win 4).blk t).view.emb (ix2 p h) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 64 + 1 * h.val = win1_4.index t (1 : Fin 2) * 64 + 1 * h.val; omega
  have h2 : ((cfg1.win 2).blk t).view.emb (ix2 p (0 : Fin 1)) = ix2 ((((cfg1.win 4).blk t).view.emb (ix2 p h)) 0) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : ((cfg1.win 3).blk t).view.emb (ix1 h) = ix1 ((((cfg1.win 4).blk t).view.emb (ix2 p h)) 1) := by
    funext a; apply Fin.ext
    match a with
    | ⟨0, _⟩ => show win1_3.index t (0 : Fin 1) * 64 + 1 * h.val = win1_4.index t (1 : Fin 2) * 64 + 1 * h.val; omega
  exact congrArg₂ (· + ·) (congrArg₂ (· + ·) (congrArg (agg V c) h0)
    (congrArg₂ (· * ·) (congrArg (scl V c) h2) (congrArg (sup V c) h1))) (congrArg (bia V c) h3)

/-- An entry of the result is in grid point t's block iff each coordinate is in the block's range on its axis. -/
theorem mem_block (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v45).slice (win1_4.rect t)).set ↔ _
  rw [View.set_slice_whole, Rect.mem_set_unit]
  exact Iff.rfl

/-- Row r of the result lies in the block of grid point r / 5000. -/
theorem covered (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := block_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- After the ten write-backs the result array holds the whole joined array of the four arrays the pass was entered
    with. -/
theorem final (c : Dev nD) :
    (dat1 V c).arrAt 4 cfg1.N = Gcn.combine (agg V c) (sup V c) (scl V c) (bia V c) :=
  (dat1 V c).arrAt_eq_of_cover 4 _ (fun t _ => flushed_eq V c t) covered

end Cert.KernelIdeal.Join

end
-- ==== Proof.RefSide.lean ====
/-
  The reference's last stages, entry by entry.

  The reference forms XW by one product over the whole arrays, and ends with (agg + scale·XW) + bias, the column of
  self-loop weights repeated along the columns and the bias laid out as one row and repeated down the rows. Read at an
  entry these are the product's sum over the contracted coordinate and the joined entry of the specification.
-/
import proofs.«173195_j19361712570525_1_alg».proof.Proof.Gen.ReferenceIdeal.Read
import proofs.«173195_j19361712570525_1_alg».proof.Proof.Spec

noncomputable section

namespace Cert.ReferenceIdeal.Layer

open Cert.ReferenceIdeal Cert.ReferenceIdeal.Gen Cert.ReferenceIdeal.Read
open Idealize.ShloMosaic Idealize.ShloMosaic.TcCoe Idealize.ShloMosaic.ValueIdx

/-- The reference's product stage is the matrix product of the specification. -/
theorem product_eq (x0 : (⟨S50000x64, .f32⟩ : BufTy).Contents (Elt Ideal)) (x2 : (⟨S64x64, .f32⟩ : BufTy).Contents (Elt Ideal)) :
    val_main_v13 (F := Ideal) x0 x2 = Gcn.matProd x0 x2 := by
  funext i
  rw [val_main_v13_apply]
  unfold Gcn.matProd
  refine Finset.sum_congr rfl fun k _ => ?_
  have el : lidx_main_v13 i k = ix2 (i 0) k := funext fun a => Fin.ext (by
    match a with
    | ⟨0, _⟩ => rfl
    | ⟨1, _⟩ => rfl)
  have er : ridx_main_v13 i k = ix2 k (i 1) := funext fun a => Fin.ext (by
    match a with
    | ⟨0, _⟩ => rfl
    | ⟨1, _⟩ => rfl)
  exact congrArg₂ (· * ·) (congrArg x0 el) (congrArg x2 er)

/-- The reference's last stage is the joined array of the specification, over its own aggregated rows, product and
    column of self-loop weights. -/
theorem join_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) :
    val_main_v50 (F := Ideal) x0 x1 x2 x3
      = Gcn.combine (val_main_v42 (F := Ideal) x0 x1 x2) (val_main_v13 (F := Ideal) x0 x2) (val_main_v44 (F := Ideal) x1) x3 := by
  funext i
  rw [val_main_v50_apply, val_main_v47_apply, val_main_v46_apply, val_main_v45_apply, val_main_v49_apply,
    val_main_v48_apply]
  have e1 : idx_main_v45 i = ix2 (i 0) (0 : Fin 1) := funext fun a => Fin.ext (by
    match a with
    | ⟨0, _⟩ => rfl
    | ⟨1, _⟩ => rfl)
  have e2 : idx_main_v48 (idx_main_v49 i) = ix1 (i 1) := funext fun a => Fin.ext (by
    match a with
    | ⟨0, _⟩ => rfl)
  rw [e1, e2]
  rfl

end Cert.ReferenceIdeal.Layer

end
-- ==== Proof.HostChain.lean ====
/-
  Between the two dense passes: the degree normalisation and the aggregation over the edge list.

  Before the first pass the host computes, from the edge list alone, the off-diagonal mask of the edges, the degrees
  and their inverse square roots. Between the passes it gathers the normalisation at both ends of every edge, gathers
  the rows of XW at the edges' heads, scales them and adds them up at the edges' tails, and squares the inverse
  square roots into the column of self-loop weights. The reference applies the very same operations, in the same
  order, to the same edge list and to its own XW; so once the first pass's result is known to be the reference's XW,
  each array the second pass reads is the reference's array of the same name, the chain of operations itself never
  opened.
-/
import proofs.«173195_j19361712570525_1_alg».proof.Proof.Gen.KernelIdeal.Frame
import proofs.«173195_j19361712570525_1_alg».proof.Proof.Gen.ReferenceIdeal.Read
import proofs.«173195_j19361712570525_1_alg».proof.Proof.Region0
import proofs.«173195_j19361712570525_1_alg».proof.Proof.Region1
import proofs.«173195_j19361712570525_1_alg».proof.Proof.RefSide
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The four argument arrays as launched. -/
abbrev feats (c : Dev nD) : (⟨S50000x64, .f32⟩ : BufTy).Contents (Elt Ideal) := m ((c : Thread nD τ).loc main_arg0)
abbrev edges (c : Dev nD) : (⟨S2x800000, .i32⟩ : BufTy).Contents (Elt Ideal) := m ((c : Thread nD τ).loc main_arg1)
abbrev weights (c : Dev nD) : (⟨S64x64, .f32⟩ : BufTy).Contents (Elt Ideal) := m ((c : Thread nD τ).loc main_arg2)
abbrev biases (c : Dev nD) : (⟨S64, .f32⟩ : BufTy).Contents (Elt Ideal) := m ((c : Thread nD τ).loc main_arg3)

/-! ## What the first pass is entered with -/

theorem first_feats (c : Dev nD) : V1 m ρ c main_arg0 = feats m c := by
  show StableHlo.after hostOps0 (W0 m ρ c) (Proc.devRef .tc main_arg0) = _
  after_results_simp

theorem first_weights (c : Dev nD) : V1 m ρ c main_arg2 = weights m c := by
  show StableHlo.after hostOps0 (W0 m ρ c) (Proc.devRef .tc main_arg2) = _
  after_results_simp

theorem first_heads (c : Dev nD) :
    W1 m ρ c (Proc.devRef .tc main_v1) = Cert.ReferenceIdeal.Read.val_main_v1 (F := Ideal) (edges m c) := by
  show StableHlo.after hostOps0 (W0 m ρ c) (Proc.devRef .tc main_v1) = _
  after_results_simp
  rfl

theorem first_tails (c : Dev nD) :
    W1 m ρ c (Proc.devRef .tc main_v3) = Cert.ReferenceIdeal.Read.val_main_v3 (F := Ideal) (edges m c) := by
  show StableHlo.after hostOps0 (W0 m ρ c) (Proc.devRef .tc main_v3) = _
  after_results_simp
  rfl

theorem first_mask (c : Dev nD) :
    W1 m ρ c (Proc.devRef .tc main_v5) = Cert.ReferenceIdeal.Read.val_main_v5 (F := Ideal) (edges m c) := by
  show StableHlo.after hostOps0 (W0 m ρ c) (Proc.devRef .tc main_v5) = _
  after_results_simp
  rfl

theorem first_dinv (c : Dev nD) :
    W1 m ρ c (Proc.devRef .tc main_v12) = Cert.ReferenceIdeal.Read.val_main_v12 (F := Ideal) (edges m c) := by
  show StableHlo.after hostOps0 (W0 m ρ c) (Proc.devRef .tc main_v12) = _
  after_results_simp
  rfl

theorem first_biases (c : Dev nD) : W1 m ρ c (Proc.devRef .tc main_arg3) = biases m c := by
  show StableHlo.after hostOps0 (W0 m ρ c) (Proc.devRef .tc main_arg3) = _
  after_results_simp

/-! ## What the first pass leaves -/

/-- The first pass leaves the reference's XW in its result array. -/
theorem mid_product (c : Dev nD) :
    W2 m ρ c (Proc.devRef .tc main_v13)
      = Cert.ReferenceIdeal.Read.val_main_v13 (F := Ideal) (feats m c) (weights m c) :=
  (W2_arr m ρ c 2).trans ((Product.final (V1 m ρ) c).trans
    ((congrArg₂ Gcn.matProd (first_feats m ρ c) (first_weights m ρ c)).trans
      (Cert.ReferenceIdeal.Layer.product_eq (feats m c) (weights m c)).symm))

/-- It writes nothing else: what the host computed from the edge list before it is still there. -/
theorem mid_heads (c : Dev nD) :
    W2 m ρ c (Proc.devRef .tc main_v1) = Cert.ReferenceIdeal.Read.val_main_v1 (F := Ideal) (edges m c) :=
  (W2_of_ne m ρ c main_v1 (by decide)).trans (first_heads m ρ c)

theorem mid_tails (c : Dev nD) :
    W2 m ρ c (Proc.devRef .tc main_v3) = Cert.ReferenceIdeal.Read.val_main_v3 (F := Ideal) (edges m c) :=
  (W2_of_ne m ρ c main_v3 (by decide)).trans (first_tails m ρ c)

theorem mid_mask (c : Dev nD) :
    W2 m ρ c (Proc.devRef .tc main_v5) = Cert.ReferenceIdeal.Read.val_main_v5 (F := Ideal) (edges m c) :=
  (W2_of_ne m ρ c main_v5 (by decide)).trans (first_mask m ρ c)

theorem mid_dinv (c : Dev nD) :
    W2 m ρ c (Proc.devRef .tc main_v12) = Cert.ReferenceIdeal.Read.val_main_v12 (F := Ideal) (edges m c) :=
  (W2_of_ne m ρ c main_v12 (by decide)).trans (first_dinv m ρ c)

theorem mid_biases (c : Dev nD) : W2 m ρ c (Proc.devRef .tc main_arg3) = biases m c :=
  (W2_of_ne m ρ c main_arg3 (by decide)).trans (first_biases m ρ c)

/-! ## What the second pass is entered with -/

/-- The aggregated rows are the reference's. -/
theorem second_agg (c : Dev nD) :
    V3 m ρ c main_v42
      = Cert.ReferenceIdeal.Read.val_main_v42 (F := Ideal) (feats m c) (edges m c) (weights m c) := by
  show StableHlo.after hostOps1 (W2 m ρ c) (Proc.devRef .tc main_v42) = _
  after_results_simp
  rw [mid_product, mid_heads, mid_tails, mid_mask, mid_dinv]
  rfl

/-- The column of self-loop weights is the reference's. -/
theorem second_scale (c : Dev nD) :
    V3 m ρ c main_v44 = Cert.ReferenceIdeal.Read.val_main_v44 (F := Ideal) (edges m c) := by
  show StableHlo.after hostOps1 (W2 m ρ c) (Proc.devRef .tc main_v44) = _
  after_results_simp
  rw [mid_dinv]
  rfl

/-- The product is still the first pass's. -/
theorem second_product (c : Dev nD) :
    V3 m ρ c main_v13 = Cert.ReferenceIdeal.Read.val_main_v13 (F := Ideal) (feats m c) (weights m c) := by
  show StableHlo.after hostOps1 (W2 m ρ c) (Proc.devRef .tc main_v13) = _
  after_results_simp
  exact mid_product m ρ c

theorem second_biases (c : Dev nD) : V3 m ρ c main_arg3 = biases m c := by
  show StableHlo.after hostOps1 (W2 m ρ c) (Proc.devRef .tc main_arg3) = _
  after_results_simp
  exact mid_biases m ρ c

/-! ## The result -/

/-- The result buffer ends holding the reference's result of the four arguments. -/
theorem result_eq (c : Dev nD) :
    W4 m ρ c (Proc.devRef .tc main_v45)
      = Cert.ReferenceIdeal.Read.val_main_v50 (F := Ideal) (feats m c) (edges m c) (weights m c) (biases m c) :=
  (W4_arr m ρ c 4).trans ((Join.final (V3 m ρ) c).trans
    ((show Gcn.combine (Join.agg (V3 m ρ) c) (Join.sup (V3 m ρ) c) (Join.scl (V3 m ρ) c) (Join.bia (V3 m ρ) c)
        = Gcn.combine (Cert.ReferenceIdeal.Read.val_main_v42 (F := Ideal) (feats m c) (edges m c) (weights m c))
            (Cert.ReferenceIdeal.Read.val_main_v13 (F := Ideal) (feats m c) (weights m c))
            (Cert.ReferenceIdeal.Read.val_main_v44 (F := Ideal) (edges m c)) (biases m c) from by
        rw [show Join.agg (V3 m ρ) c = _ from second_agg m ρ c, show Join.sup (V3 m ρ) c = _ from second_product m ρ c,
          show Join.scl (V3 m ρ) c = _ from second_scale m ρ c, show Join.bia (V3 m ρ) c = _ from second_biases m ρ c]).trans
      (Cert.ReferenceIdeal.Layer.join_eq (feats m c) (edges m c) (weights m c) (biases m c)).symm))

end Cert.KernelIdeal.Between

end
-- ==== Proof.lean ====
/-
  One graph-convolution layer, out = D^{-1/2}(A + I)D^{-1/2}·(XW) + b over an edge list, computed with two dense
  passes against the plain reference: equal results over the extended reals.

  The kernel's program computes the off-diagonal mask, the degrees and their inverse square roots on the host, forms
  XW in a first pass over ten blocks of 5000 rows (operands narrowed to bf16, accumulated from zero: at the ideal
  values the plain sum Σ_l X(r, l)·W(l, h)), gathers, scales and adds up the rows of XW along the edges on the host,
  and in a second pass over the same ten blocks stores (agg + dinv²·XW) + b. The reference applies the same host
  operations to one whole product XW and ends with the same sum in the same grouping. So no algebraic law beyond the
  product's definition is needed and finiteness of the inputs is never used: block by block each pass's result is a
  restriction of one whole array, the ten blocks tile the rows, the host chain between the passes is the reference's
  own, and the final arrays agree entry by entry.

  Frames: both printed kernels' runs terminate with the arguments unchanged; the reference's run is its operations'
  composed term, its frame that run with the result dropped. The idealization rewrote nothing, so its ledger is empty.
-/
import proofs.«173195_j19361712570525_1_alg».proof.Defs
import proofs.«173195_j19361712570525_1_alg».proof.Proof.Gen.Kernel
import proofs.«173195_j19361712570525_1_alg».proof.Proof.Gen.Kernel.Skeleton
import proofs.«173195_j19361712570525_1_alg».proof.Proof.Gen.Kernel.Launch
import proofs.«173195_j19361712570525_1_alg».proof.Proof.Gen.Kernel.Points
import proofs.«173195_j19361712570525_1_alg».proof.Proof.Gen.Kernel.Frame
import proofs.«173195_j19361712570525_1_alg».proof.Proof.Gen.KernelIdeal
import proofs.«173195_j19361712570525_1_alg».proof.Proof.Gen.KernelIdeal.Skeleton
import proofs.«173195_j19361712570525_1_alg».proof.Proof.Gen.KernelIdeal.Launch
import proofs.«173195_j19361712570525_1_alg».proof.Proof.Gen.KernelIdeal.Points
import proofs.«173195_j19361712570525_1_alg».proof.Proof.Gen.KernelIdeal.Frame
import proofs.«173195_j19361712570525_1_alg».proof.Proof.Gen.ReferenceIdeal
import proofs.«173195_j19361712570525_1_alg».proof.Proof.Gen.Pre_finite_inputs
import proofs.«173195_j19361712570525_1_alg».proof.Proof.Gen.ReferenceIdeal.Run
import proofs.«173195_j19361712570525_1_alg».proof.Proof.Gen.ReferenceIdeal.Read
import proofs.«173195_j19361712570525_1_alg».proof.Proof.KernelRun
import proofs.«173195_j19361712570525_1_alg».proof.Proof.HostChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the reference's last stage of the kernel's four arguments: the kernel's
    by the two passes and the host chain between them, the reference's by its run, the arguments agreeing. -/
theorem algebraic : Cert.algebraic_KernelIdeal_ReferenceIdeal := by
  intro m ρ m' ρ' _ hagree
  refine ⟨fun c => Cert.ReferenceIdeal.Read.val_main_v50 (F := Ideal) (Cert.KernelIdeal.Between.feats m c)
    (Cert.KernelIdeal.Between.edges m c) (Cert.KernelIdeal.Between.weights m c) (Cert.KernelIdeal.Between.biases m c), ?_, ?_⟩
  · exact (θ_run Cert.KernelIdeal.defs _ _).mono
      (fun r h c => ⟨(h c).1.trans (Cert.KernelIdeal.Between.result_eq m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v50_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
